-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x128 .f32) (main_arg3 : FVec F S128 .f32) (main_arg4 : FVec F S128x128 .f32) (main_arg5 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩
abbrev S400x10000 : Shape := ⟨2, ![400, 10000]⟩
abbrev S400x128 : Shape := ⟨2, ![400, 128]⟩

abbrev nBuf : Space → Nat
  | .hbm => 11
  | .vmem => 17
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S10000x128, .bf16⟩
  | .hbm, ⟨8, _⟩ => ⟨S10000x10000, .bf16⟩
  | .hbm, ⟨9, _⟩ => ⟨S1x128, .f32⟩
  | .hbm, ⟨10, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S200x10000, .f32⟩
  | .local _ .vmem, ⟨5, _⟩ => ⟨S200x10000, .f32⟩
  | .local _ .vmem, ⟨6, _⟩ => ⟨S200x128, .bf16⟩
  | .local _ .vmem, ⟨7, _⟩ => ⟨S200x128, .bf16⟩
  | .local _ .vmem, ⟨8, _⟩ => ⟨S200x10000, .bf16⟩
  | .local _ .vmem, ⟨9, _⟩ => ⟨S200x10000, .bf16⟩
  | .local _ .vmem, ⟨10, _⟩ => ⟨S10000x128, .f32⟩
  | .local _ .vmem, ⟨11, _⟩ => ⟨S10000x128, .bf16⟩
  | .local _ .vmem, ⟨12, _⟩ => ⟨S1x128, .f32⟩
  | .local _ .vmem, ⟨13, _⟩ => ⟨S400x10000, .bf16⟩
  | .local _ .vmem, ⟨14, _⟩ => ⟨S400x10000, .bf16⟩
  | .local _ .vmem, ⟨15, _⟩ => ⟨S400x128, .f32⟩
  | .local _ .vmem, ⟨16, _⟩ => ⟨S400x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x10000 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x10000 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  packedbf16_S200x10000_S200x10000_0_0 : (Rect.unit (s := S200x10000) ![0, 0] S200x10000.size inb_S200x10000_S200x10000_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  packedbf16_S200x128_S200x128_0_0 : (Rect.unit (s := S200x128) ![0, 0] S200x128.size inb_S200x128_S200x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .bf16 = 32 ∨ (Rect.block (s := S10000x128) S200x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x10000.size a ≤ S10000x10000.size a
  hwx0_6 : ∀ i : grid0.Coords, EltTy.bits .bf16 = 32 ∨ (Rect.block (s := S10000x10000) S200x10000.size (cc0_transform_6 i) (hinb0_6 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S10000x128.size a
  hwx1_0 : ∀ i : grid1.Coords, EltTy.bits .bf16 = 32 ∨ (Rect.block (s := S10000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x10000.size a ≤ S10000x10000.size a
  hwx1_2 : ∀ i : grid1.Coords, EltTy.bits .bf16 = 32 ∨ (Rect.block (s := S10000x10000) S400x10000.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S200x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S200x10000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1_0) S10000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S400x10000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KRegion0.lean ====
/-
  The first pallas_call (the first graph-convolution layer and the second layer's support), as a pipeline region
  entered with the TensorCore's buffers at contents `V`. At the first grid point the body computes the first layer's
  support — the features times the first weight matrix — into a scratch buffer it keeps for the whole region; at every
  point it narrows the point's 200 rows of the adjacency matrix into one output block, and from those rows, the kept
  support, the bias row and the second weight matrix computes the point's 200 rows of the second layer's support into
  the other. The region's invariant carries the scratch: at anything before the first point, at the support afterwards.
-/
import proofs.«127114_g57621281243476_cont_9to1c4b_629_11_alg».proof.Proof.Gen.Kernel.Launch
import proofs.«127114_g57621281243476_cont_9to1c4b_629_11_alg».proof.Proof.Gen.Kernel.Skeleton
import proofs.«127114_g57621281243476_cont_9to1c4b_629_11_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB1 : Rect S1x128 := Rect.unit (s := S1x128) ![0, 0] S1x128.size inb_S1x128_S1x128_0_0
abbrev rG : Rect S200x10000 := Rect.unit (s := S200x10000) ![0, 0] S200x10000.size inb_S200x10000_S200x10000_0_0
abbrev rS : Rect S200x128 := Rect.unit (s := S200x128) ![0, 0] S200x128.size inb_S200x128_S200x128_0_0

/-- The branch the body takes at the first grid point only. -/
abbrev cond0 (i : grid0.Coords) : Prop :=
  (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-- The scratch after the first point: the features times the first weight matrix, stored whole. -/
def sc0 (x0 : Vec F S10000x128 .f32) (x1 : Vec F S128x128 .f32) : Vec F S10000x128 .f32 :=
  View.canon [⟨rX, k0_pay1 (View.ld x0 rX) (View.ld x1 rW)⟩]
/-- The narrowed adjacency block: its one store, of the whole block. -/
def out0_6 (x4 : Vec F S200x10000 .f32) : Vec F S200x10000 .bf16 :=
  View.canon [⟨rG, k0_pay2 (View.ld x4 rG)⟩]
/-- The second-layer support block, from the bias row, the second weight matrix, the adjacency block and the scratch. -/
def out0_5 (x2 : Vec F S1x128 .f32) (x3 : Vec F S128x128 .f32) (x4 : Vec F S200x10000 .f32) (s : Vec F S10000x128 .f32) : Vec F S200x128 .bf16 :=
  View.canon [⟨rS, k0_pay3 (View.ld x4 rG) (View.ld s rX) (View.ld x2 rB1) (View.ld x3 rW)⟩]

theorem cover_X (p0 : Vec F S10000x128 .f32) (y : S10000x128.Idx) :
    ∃ pc ∈ ([⟨rX, p0⟩] : List (View.Piece (Elt F) S10000x128 .f32)), y ∈ pc.1.set :=
  View.cover_of_tiled [⟨rX, p0⟩] S10000x128.size (by rfl) y
theorem cover_G (p0 : Vec F S200x10000 .bf16) (y : S200x10000.Idx) :
    ∃ pc ∈ ([⟨rG, p0⟩] : List (View.Piece (Elt F) S200x10000 .bf16)), y ∈ pc.1.set :=
  View.cover_of_tiled [⟨rG, p0⟩] S200x10000.size (by rfl) y
theorem cover_S (p0 : Vec F S200x128 .bf16) (y : S200x128.Idx) :
    ∃ pc ∈ ([⟨rS, p0⟩] : List (View.Piece (Elt F) S200x128 .bf16)), y ∈ pc.1.set :=
  View.cover_of_tiled [⟨rS, p0⟩] S200x128.size (by rfl) y

set_option maxHeartbeats 2000000 in
/-- The body at a LATER point (the branch not taken): on whole memrefs, the inputs' at read contents, the outputs' at
    anything, the scratch at `s`, it runs to the continuation holding inputs and scratch as they were and the outputs at
    `out0_5` / `out0_6`. -/
theorem sound_kernel0_later (c : Dev nD) (E : Set ℕ) (i : grid0.Coords) (hc : ¬cond0 i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S200x10000 .f32) (harg5 : arg5.IsWhole) (arg6 : Memref sig .tc .vmem S200x128 .bf16) (harg6 : arg6.IsWhole)
    (arg7 : Memref sig .tc .vmem S200x10000 .bf16) (harg7 : arg7.IsWhole) (arg8 : Memref sig .tc .vmem S10000x128 .f32) (harg8 : arg8.IsWhole)
    (x0 : Vec F S10000x128 .f32) (x1 : Vec F S128x128 .f32) (x2 : Vec F S1x128 .f32) (x3 : Vec F S128x128 .f32) (x4 : Vec F S200x10000 .f32)
    (s : Vec F S10000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x2 x3 x4 s) ∗ owns (c : Thread nD τ) arg7 fullShare (out0_6 x4)
            ∗ owns (c : Thread nD τ) arg8 fullShare s) -∗ K ⟨⟩))
      ⊢ wp frame (wpE (defs₀ (F := F)) Variants.none c none) E
          (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f8, %hf8, H8⟩, Hk⟩
  subst hf0; subst hf1; subst hf2; subst hf3; subst hf4; subst hf8
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_S _)
  isplitl [H6]
  · iexists _; isplitr
    swap; · iexact H6
    ipureintro
    exact View.read_writes_eq_canon _ _ _ (cover_G _)
  iexists f8; isplitr; · ipureintro; rfl
  iexact H8

set_option maxHeartbeats 2000000 in
/-- The body at the FIRST point (the branch taken): the scratch, at anything, is stored whole with the support
    `sc0` before anything reads it; the rest as at a later point, from that support. -/
theorem sound_kernel0_first (c : Dev nD) (E : Set ℕ) (i : grid0.Coords) (hc : cond0 i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S200x10000 .f32) (harg5 : arg5.IsWhole) (arg6 : Memref sig .tc .vmem S200x128 .bf16) (harg6 : arg6.IsWhole)
    (arg7 : Memref sig .tc .vmem S200x10000 .bf16) (harg7 : arg7.IsWhole) (arg8 : Memref sig .tc .vmem S10000x128 .f32) (harg8 : arg8.IsWhole)
    (x0 : Vec F S10000x128 .f32) (x1 : Vec F S128x128 .f32) (x2 : Vec F S1x128 .f32) (x3 : Vec F S128x128 .f32) (x4 : Vec F S200x10000 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x2 x3 x4 (sc0 x0 x1)) ∗ owns (c : Thread nD τ) arg7 fullShare (out0_6 x4)
            ∗ owns (c : Thread nD τ) arg8 fullShare (sc0 x0 x1)) -∗ K ⟨⟩))
      ⊢ wp frame (wpE (defs₀ (F := F)) Variants.none c none) E
          (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d8, %f8, -, H8⟩, Hk⟩
  subst hf0; subst hf1; subst hf2; subst hf3; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_S _)]
    unfold out0_5 sc0
    sl_unfold_run_names
    have hz : (![0, 0] : Fin 2 → Nat) = fun _ => 0 := by funext a; fin_cases a <;> rfl
    rw [View.readCov_unit_zero (S := S10000x128) _ hz, View.canon_unit_zero (S := S10000x128) hz]
    simp only [View.readAt_eq_ld, View.ld_unit_zero (S := S10000x128) hz, View.ld_unit_zero (S := S128x128) hz,
      View.ld_unit_zero (S := S200x10000) hz, View.ld_unit_zero (S := S1x128) hz]
  isplitl [H6]
  · iexists _; isplitr
    swap; · iexact H6
    ipureintro
    exact View.read_writes_eq_canon _ _ _ (cover_G _)
  iexists _; isplitr
  swap; · iexact H8
  ipureintro
  exact View.read_writes_eq_canon _ _ _ (cover_X _)

end Region0

end Cert.Kernel.Hand

end
-- ==== Proof.KRegion0Dat.lean ====
/-
  The first pallas_call's proof data: what each window's buffer holds after the body at each point, the region's
  invariant with the kept support, and the body obligation at every point, by the body's two runs (the first point,
  which fills the scratch, and a later point, which reads it).
-/
import proofs.«127114_g57621281243476_cont_9to1c4b_629_11_alg».proof.Proof.Gen.Kernel.Launch
import proofs.«127114_g57621281243476_cont_9to1c4b_629_11_alg».proof.Proof.Gen.Kernel.Skeleton
import proofs.«127114_g57621281243476_cont_9to1c4b_629_11_alg».proof.Proof.Gen.Kernel.Points
import proofs.«127114_g57621281243476_cont_9to1c4b_629_11_alg».proof.Proof.KRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- An input window's current staging buffer holds its block at every point, fetched there or not: where the pipeline
    does not fetch, the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
abbrev t00 : Fin cfg0.N := ⟨0, by decide⟩

/-- The scratch operand as a memref. -/
abbrev scM : Memref sig .tc .vmem S10000x128 .f32 := Memref.whole cc0_scratch0

/-- The first layer's support as the scratch holds it from the first point on: of the features and the first weight
    matrix as the first point finds them. -/
def S1 (c : Dev nD) : Vec F S10000x128 .f32 := sc0 (iblk0 V c 0 t00) (iblk0 V c 1 t00)

/-- The core's scoped buffers that are neither a staging buffer of this pipeline nor its scratch (the second pipeline's
    staging buffers), each whole at some contents. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The scoped rest and the generator register, with the scratch split off as a memref owned at some contents. -/
theorem PhiA0_eq (c : Dev nD) :
    (Pipeline.ΦA spec0 c : sProp 𝕄)
      = iprop(iprop((∃ d, owns (c : Thread nD τ) scM fullShare d) ∗ restS c) ∗ (∃ r, prngReg c r)) := by
  unfold Pipeline.ΦA restS; rw [scopedRest0_eq]; simp only [scM, owns_whole]; try rfl

/-- The region's invariant before position `n`: before the first point the scratch is at anything; afterwards it holds
    the first layer's support. -/
def Phi0 (c : Dev nD) : ℕ → sProp 𝕄
  | 0 => Pipeline.ΦA spec0 c
  | _ + 1 => iprop(iprop(owns (c : Thread nD τ) scM fullShare (S1 V c) ∗ restS c) ∗ (∃ r, prngReg c r))

theorem Phi0_pos (c : Dev nD) (n : ℕ) (hn : n ≠ 0) :
    Phi0 V c n = iprop(iprop(owns (c : Thread nD τ) scM fullShare (S1 V c) ∗ restS c) ∗ (∃ r, prngReg c r)) := by
  cases n with
  | zero => exact absurd rfl hn
  | succ n => rfl

/-- The proof data of the first pipeline on core `c`: the arrays as the region finds them; after the body at point `t`
    each input's buffer at its block, the narrowed adjacency block and the second-layer support block from the point's
    blocks and the kept support; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 2 t) (iblk0 V c 3 t) (iblk0 V c 4 t) (S1 V c)
    | ⟨6, _⟩ => out0_6 (iblk0 V c 4 t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 2 t) (iblk0 V c 3 t) (iblk0 V c 4 t) (S1 V c) := by dsimp only [dat0]
theorem after0_6 (c : Dev nD) (t : Fin cfg0.N) : (dat0 V c).after 6 t = out0_6 (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point. At the first point the invariant hands the body the scratch at anything and takes it back
    at the support the body stored; at a later point it hands the scratch at the support and takes it back unchanged.
    The inputs' memrefs hold their blocks; the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6,
    show (dat0 V c).Φ t.succ = Phi0 V c (t.val + 1) from rfl,
    show (dat0 V c).Φ t.castSucc = Phi0 V c t.val from rfl,
    show Phi0 V c (t.val + 1) = iprop(iprop(owns (c : Thread nD τ) scM fullShare (S1 V c) ∗ restS c) ∗ (∃ r, prngReg c r)) from rfl]
  by_cases hz : t.val = 0
  · have ht : t = t00 := Fin.ext hz
    subst ht
    rw [show Phi0 V c (t00 : Fin cfg0.N).val = Pipeline.ΦA spec0 c from rfl, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t00) ((hcond0 t00).mpr rfl) _ _ _ _ _ _ _ _ _ _ _ _ _ _ _ _
      (iblk0 V c 0 t00) (iblk0 V c 1 t00) (iblk0 V c 2 t00) (iblk0 V c 3 t00) (iblk0 V c 4 t00) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi0_pos V c _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_later c Set.univ (grid0.coords t) (fun h => hz ((hcond0 t).mp h)) _ _ _ _ _ _ _ _ _ _ _ _ _ _ _ _
      (iblk0 V c 0 t) (iblk0 V c 1 t) (iblk0 V c 2 t) (iblk0 V c 3 t) (iblk0 V c 4 t) (S1 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = Pipeline.ΦA spec0 c from rfl]

/-- After the last point the invariant gives the scoped rest and the generator register back: what the scratch holds
    is forgotten. -/
theorem hout0 (c : Dev nD) : (dat0 V c).Φ (Fin.last cfg0.N) ⊢ Pipeline.ΦA spec0 c := by
  rw [show (dat0 V c).Φ (Fin.last cfg0.N) = iprop(iprop(owns (c : Thread nD τ) scM fullShare (S1 V c) ∗ restS c) ∗ (∃ r, prngReg c r)) from rfl,
    PhiA0_eq]
  iintro ⟨⟨HS, Hrest⟩, Hg⟩
  isplitl [HS Hrest]
  · isplitl [HS]; · iexists _; iexact HS
    iexact Hrest
  iexact Hg

end Region0

end Cert.Kernel.Hand

end
-- ==== Proof.KRegion1.lean ====
/-
  The second pallas_call (the second graph-convolution layer), as a pipeline region entered with the TensorCore's
  buffers at contents `V`: at every grid point `t` the body multiplies the point's 400 rows of the narrowed adjacency
  matrix by the whole second-layer support and adds the bias row, and stores the 400 × 128 result block whole. It keeps
  nothing between points: the region's invariant is the scoped rest and the generator register, untouched.
-/
import proofs.«127114_g57621281243476_cont_9to1c4b_629_11_alg».proof.Proof.Gen.Kernel.Launch
import proofs.«127114_g57621281243476_cont_9to1c4b_629_11_alg».proof.Proof.Gen.Kernel.Skeleton
import proofs.«127114_g57621281243476_cont_9to1c4b_629_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the pipeline
    does not fetch, the block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rS2 : Rect S10000x128 := Rect.unit (s := S10000x128) ![0, 0] S10000x128.size inb_S10000x128_S10000x128_0_0
abbrev rB : Rect S1x128 := Rect.unit (s := S1x128) ![0, 0] S1x128.size inb_S1x128_S1x128_0_0
abbrev rG16 : Rect S400x10000 := Rect.unit (s := S400x10000) ![0, 0] S400x10000.size inb_S400x10000_S400x10000_0_0
abbrev rO : Rect S400x128 := Rect.unit (s := S400x128) ![0, 0] S400x128.size inb_S400x128_S400x128_0_0

/-- What the body leaves in the output window's buffer, from the input windows' blocks: its one store, of the whole
    block. -/
def out1_3 (x0 : Vec F S10000x128 .bf16) (x1 : Vec F S1x128 .f32) (x2 : Vec F S400x10000 .bf16) : Vec F S400x128 .f32 :=
  View.canon [⟨rO, k1_pay1 (View.ld x2 rG16) (View.ld x0 rS2) (View.ld x1 rB)⟩]

/-- The one store covers the buffer. -/
theorem cover1_3 (p0 : Vec F S400x128 .f32) (y : S400x128.Idx) :
    ∃ pc ∈ ([⟨rO, p0⟩] : List (View.Piece (Elt F) S400x128 .f32)), y ∈ pc.1.set :=
  View.cover_of_tiled [⟨rO, p0⟩] S400x128.size (by rfl) y

set_option maxHeartbeats 1000000 in
/-- The body on whole staging memrefs, the inputs' at read contents and the output's at anything, runs to the
    continuation holding the inputs' as they were and the output's at `out1_3` of the inputs'. -/
theorem sound_kernel1 (c : Dev nD) (E : Set ℕ) (i : grid1.Coords)
    (arg1 : Memref sig .tc .vmem S10000x128 .bf16) (harg1 : arg1.IsWhole) (arg2 : Memref sig .tc .vmem S1x128 .f32) (harg2 : arg2.IsWhole)
    (arg3 : Memref sig .tc .vmem S400x10000 .bf16) (harg3 : arg3.IsWhole) (arg4 : Memref sig .tc .vmem S400x128 .f32) (harg4 : arg4.IsWhole)
    (x0 : Vec F S10000x128 .bf16) (x1 : Vec F S1x128 .f32) (x2 : Vec F S400x10000 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__layer2_kernel i arg1 harg1 arg2 harg2 arg3 harg3 arg4 harg4) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the second pipeline on core `c`: the arrays as the region finds them; after the body at point
    `t` each input's buffer at its block and the output's at `out1_3` of the input blocks; the invariant the scoped rest
    and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  The whole run of the kernel's program: @main is a reshape of the first bias, the first pallas_call, a reshape of the
  second bias, the second pallas_call. The TensorCore's unscoped buffers are followed through the four segments — a
  host stretch applies its operations, a region leaves its arrays at what its write-backs fold to and every other
  buffer as it found it — and every weakly fair execution terminates with every unscoped buffer at the last of these
  contents. Read at an argument that is the launch memory; read at the result it is the second region's output array.
-/
import proofs.«127114_g57621281243476_cont_9to1c4b_629_11_alg».proof.Proof.Gen.Kernel.Launch
import proofs.«127114_g57621281243476_cont_9to1c4b_629_11_alg».proof.Proof.Gen.Kernel.Skeleton
import proofs.«127114_g57621281243476_cont_9to1c4b_629_11_alg».proof.Proof.Gen.Kernel.Points
import proofs.«127114_g57621281243476_cont_9to1c4b_629_11_alg».proof.Proof.KRegion0Dat
import proofs.«127114_g57621281243476_cont_9to1c4b_629_11_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first bias is reshaped to a row (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second bias is reshaped to a row (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W1 m ρ c (Proc.devRef .tc main_arg0) := (W2_arr m ρ c 4).trans (((dat0 (V1 m ρ) c).arrAt_in 4 rfl _).trans (A_eq0 (V1 m ρ) c 4))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg5) := rfl

/-! ## The proof data family and the thread state -/

/-- No pipeline has a prefetched table. -/
abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The regions as segments -/

/-- The scoped rest and the generator register, regrouped as a region's exit hands them back. -/
theorem PhiA_split (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

set_option backward.isDefEq.respectTransparency.types false in
/-- The first pallas_call over the thread state: entered from every unscoped buffer at `W1`, left at `W2`. Its
    arrays are split out of the unscoped buffers and put back at the contents the write-backs leave; the generator
    register goes into the region's invariant and comes back; nothing is owed; the kernel has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [Pipeline.ownSems0_none]
    exact (hout0 (V1 m ρ) c).trans (PhiA_split c)
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W3`, left at `W4`. Its
    arrays are split out of the unscoped buffers and put back at the contents the write-backs leave; the generator
    register goes into the region's invariant and comes back; nothing is owed; the kernel has no semaphore of its own. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) padm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters, every weakly fair execution of @main on the TensorCore terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) padm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The run with the result named: the result array ends at what the second pipeline's write-backs fold to, the
    arguments as launched. -/
theorem run_result : θ_run defs (onTc (τ := τ) (main (F := F))) ⟨m, fun _ => 0, ρ⟩ (fun r => ∀ c : Dev nD,
      r.2.mem ((c.tc : Thread nD τ).loc main_v3) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v3 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Hand

end
-- ==== Proof.Region0.lean ====
/-
  The first pallas_call (the first graph-convolution layer and the second layer's support), as a pipeline region
  entered with the TensorCore's buffers at contents `V`. At the first grid point the body computes the first layer's
  support — the features times the first weight matrix — into a scratch buffer it keeps for the whole region; at every
  point it narrows the point's 200 rows of the adjacency matrix into one output block, and from those rows, the kept
  support, the bias row and the second weight matrix computes the point's 200 rows of the second layer's support into
  the other. The region's invariant carries the scratch: at anything before the first point, at the support afterwards.
-/
import proofs.«127114_g57621281243476_cont_9to1c4b_629_11_alg».proof.Proof.Gen.KernelIdeal.Launch
import proofs.«127114_g57621281243476_cont_9to1c4b_629_11_alg».proof.Proof.Gen.KernelIdeal.Skeleton
import proofs.«127114_g57621281243476_cont_9to1c4b_629_11_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rX : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB1 : Rect S1x128 := Rect.unit (s := S1x128) ![0, 0] S1x128.size inb_S1x128_S1x128_0_0
abbrev rG : Rect S200x10000 := Rect.unit (s := S200x10000) ![0, 0] S200x10000.size inb_S200x10000_S200x10000_0_0
abbrev rS : Rect S200x128 := Rect.unit (s := S200x128) ![0, 0] S200x128.size inb_S200x128_S200x128_0_0

/-- The branch the body takes at the first grid point only. -/
abbrev cond0 (i : grid0.Coords) : Prop :=
  (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-- The scratch after the first point: the features times the first weight matrix, stored whole. -/
def sc0 (x0 : Vec F S10000x128 .f32) (x1 : Vec F S128x128 .f32) : Vec F S10000x128 .f32 :=
  View.canon [⟨rX, k0_pay1 (View.ld x0 rX) (View.ld x1 rW)⟩]
/-- The narrowed adjacency block: its one store, of the whole block. -/
def out0_6 (x4 : Vec F S200x10000 .f32) : Vec F S200x10000 .bf16 :=
  View.canon [⟨rG, k0_pay2 (View.ld x4 rG)⟩]
/-- The second-layer support block, from the bias row, the second weight matrix, the adjacency block and the scratch. -/
def out0_5 (x2 : Vec F S1x128 .f32) (x3 : Vec F S128x128 .f32) (x4 : Vec F S200x10000 .f32) (s : Vec F S10000x128 .f32) : Vec F S200x128 .bf16 :=
  View.canon [⟨rS, k0_pay3 (View.ld x4 rG) (View.ld s rX) (View.ld x2 rB1) (View.ld x3 rW)⟩]

theorem cover_X (p0 : Vec F S10000x128 .f32) (y : S10000x128.Idx) :
    ∃ pc ∈ ([⟨rX, p0⟩] : List (View.Piece (Elt F) S10000x128 .f32)), y ∈ pc.1.set :=
  View.cover_of_tiled [⟨rX, p0⟩] S10000x128.size (by rfl) y
theorem cover_G (p0 : Vec F S200x10000 .bf16) (y : S200x10000.Idx) :
    ∃ pc ∈ ([⟨rG, p0⟩] : List (View.Piece (Elt F) S200x10000 .bf16)), y ∈ pc.1.set :=
  View.cover_of_tiled [⟨rG, p0⟩] S200x10000.size (by rfl) y
theorem cover_S (p0 : Vec F S200x128 .bf16) (y : S200x128.Idx) :
    ∃ pc ∈ ([⟨rS, p0⟩] : List (View.Piece (Elt F) S200x128 .bf16)), y ∈ pc.1.set :=
  View.cover_of_tiled [⟨rS, p0⟩] S200x128.size (by rfl) y

set_option maxHeartbeats 2000000 in
/-- The body at a LATER point (the branch not taken): on whole memrefs, the inputs' at read contents, the outputs' at
    anything, the scratch at `s`, it runs to the continuation holding inputs and scratch as they were and the outputs at
    `out0_5` / `out0_6`. -/
theorem sound_kernel0_later (c : Dev nD) (E : Set ℕ) (i : grid0.Coords) (hc : ¬cond0 i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S200x10000 .f32) (harg5 : arg5.IsWhole) (arg6 : Memref sig .tc .vmem S200x128 .bf16) (harg6 : arg6.IsWhole)
    (arg7 : Memref sig .tc .vmem S200x10000 .bf16) (harg7 : arg7.IsWhole) (arg8 : Memref sig .tc .vmem S10000x128 .f32) (harg8 : arg8.IsWhole)
    (x0 : Vec F S10000x128 .f32) (x1 : Vec F S128x128 .f32) (x2 : Vec F S1x128 .f32) (x3 : Vec F S128x128 .f32) (x4 : Vec F S200x10000 .f32)
    (s : Vec F S10000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x2 x3 x4 s) ∗ owns (c : Thread nD τ) arg7 fullShare (out0_6 x4)
            ∗ owns (c : Thread nD τ) arg8 fullShare s) -∗ K ⟨⟩))
      ⊢ wp frame (wpE (defs₀ (F := F)) Variants.none c none) E
          (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f8, %hf8, H8⟩, Hk⟩
  subst hf0; subst hf1; subst hf2; subst hf3; subst hf4; subst hf8
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_S _)
  isplitl [H6]
  · iexists _; isplitr
    swap; · iexact H6
    ipureintro
    exact View.read_writes_eq_canon _ _ _ (cover_G _)
  iexists f8; isplitr; · ipureintro; rfl
  iexact H8

set_option maxHeartbeats 2000000 in
/-- The body at the FIRST point (the branch taken): the scratch, at anything, is stored whole with the support
    `sc0` before anything reads it; the rest as at a later point, from that support. -/
theorem sound_kernel0_first (c : Dev nD) (E : Set ℕ) (i : grid0.Coords) (hc : cond0 i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S200x10000 .f32) (harg5 : arg5.IsWhole) (arg6 : Memref sig .tc .vmem S200x128 .bf16) (harg6 : arg6.IsWhole)
    (arg7 : Memref sig .tc .vmem S200x10000 .bf16) (harg7 : arg7.IsWhole) (arg8 : Memref sig .tc .vmem S10000x128 .f32) (harg8 : arg8.IsWhole)
    (x0 : Vec F S10000x128 .f32) (x1 : Vec F S128x128 .f32) (x2 : Vec F S1x128 .f32) (x3 : Vec F S128x128 .f32) (x4 : Vec F S200x10000 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x2 x3 x4 (sc0 x0 x1)) ∗ owns (c : Thread nD τ) arg7 fullShare (out0_6 x4)
            ∗ owns (c : Thread nD τ) arg8 fullShare (sc0 x0 x1)) -∗ K ⟨⟩))
      ⊢ wp frame (wpE (defs₀ (F := F)) Variants.none c none) E
          (cc0__layer1_kernel i arg1 harg1 arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d8, %f8, -, H8⟩, Hk⟩
  subst hf0; subst hf1; subst hf2; subst hf3; subst hf4
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (cover_S _)]
    unfold out0_5 sc0
    sl_unfold_run_names
    have hz : (![0, 0] : Fin 2 → Nat) = fun _ => 0 := by funext a; fin_cases a <;> rfl
    rw [View.readCov_unit_zero (S := S10000x128) _ hz, View.canon_unit_zero (S := S10000x128) hz]
    simp only [View.readAt_eq_ld, View.ld_unit_zero (S := S10000x128) hz, View.ld_unit_zero (S := S128x128) hz,
      View.ld_unit_zero (S := S200x10000) hz, View.ld_unit_zero (S := S1x128) hz]
  isplitl [H6]
  · iexists _; isplitr
    swap; · iexact H6
    ipureintro
    exact View.read_writes_eq_canon _ _ _ (cover_G _)
  iexists _; isplitr
  swap; · iexact H8
  ipureintro
  exact View.read_writes_eq_canon _ _ _ (cover_X _)

end Region0

end Cert.KernelIdeal.Hand

end
-- ==== Proof.Region0Dat.lean ====
/-
  The first pallas_call's proof data: what each window's buffer holds after the body at each point, the region's
  invariant with the kept support, and the body obligation at every point, by the body's two runs (the first point,
  which fills the scratch, and a later point, which reads it).
-/
import proofs.«127114_g57621281243476_cont_9to1c4b_629_11_alg».proof.Proof.Gen.KernelIdeal.Launch
import proofs.«127114_g57621281243476_cont_9to1c4b_629_11_alg».proof.Proof.Gen.KernelIdeal.Skeleton
import proofs.«127114_g57621281243476_cont_9to1c4b_629_11_alg».proof.Proof.Gen.KernelIdeal.Points
import proofs.«127114_g57621281243476_cont_9to1c4b_629_11_alg».proof.Proof.Region0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- An input window's current staging buffer holds its block at every point, fetched there or not: where the pipeline
    does not fetch, the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
abbrev t00 : Fin cfg0.N := ⟨0, by decide⟩

/-- The scratch operand as a memref. -/
abbrev scM : Memref sig .tc .vmem S10000x128 .f32 := Memref.whole cc0_scratch0

/-- The first layer's support as the scratch holds it from the first point on: of the features and the first weight
    matrix as the first point finds them. -/
def S1 (c : Dev nD) : Vec F S10000x128 .f32 := sc0 (iblk0 V c 0 t00) (iblk0 V c 1 t00)

/-- The core's scoped buffers that are neither a staging buffer of this pipeline nor its scratch (the second pipeline's
    staging buffers), each whole at some contents. -/
def restS (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The scoped rest and the generator register, with the scratch split off as a memref owned at some contents. -/
theorem PhiA0_eq (c : Dev nD) :
    (Pipeline.ΦA spec0 c : sProp 𝕄)
      = iprop(iprop((∃ d, owns (c : Thread nD τ) scM fullShare d) ∗ restS c) ∗ (∃ r, prngReg c r)) := by
  unfold Pipeline.ΦA restS; rw [scopedRest0_eq]; simp only [scM, owns_whole]; try rfl

/-- The region's invariant before position `n`: before the first point the scratch is at anything; afterwards it holds
    the first layer's support. -/
def Phi0 (c : Dev nD) : ℕ → sProp 𝕄
  | 0 => Pipeline.ΦA spec0 c
  | _ + 1 => iprop(iprop(owns (c : Thread nD τ) scM fullShare (S1 V c) ∗ restS c) ∗ (∃ r, prngReg c r))

theorem Phi0_pos (c : Dev nD) (n : ℕ) (hn : n ≠ 0) :
    Phi0 V c n = iprop(iprop(owns (c : Thread nD τ) scM fullShare (S1 V c) ∗ restS c) ∗ (∃ r, prngReg c r)) := by
  cases n with
  | zero => exact absurd rfl hn
  | succ n => rfl

/-- The proof data of the first pipeline on core `c`: the arrays as the region finds them; after the body at point `t`
    each input's buffer at its block, the narrowed adjacency block and the second-layer support block from the point's
    blocks and the kept support; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 2 t) (iblk0 V c 3 t) (iblk0 V c 4 t) (S1 V c)
    | ⟨6, _⟩ => out0_6 (iblk0 V c 4 t)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 2 t) (iblk0 V c 3 t) (iblk0 V c 4 t) (S1 V c) := by dsimp only [dat0]
theorem after0_6 (c : Dev nD) (t : Fin cfg0.N) : (dat0 V c).after 6 t = out0_6 (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point. At the first point the invariant hands the body the scratch at anything and takes it back
    at the support the body stored; at a later point it hands the scratch at the support and takes it back unchanged.
    The inputs' memrefs hold their blocks; the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6,
    show (dat0 V c).Φ t.succ = Phi0 V c (t.val + 1) from rfl,
    show (dat0 V c).Φ t.castSucc = Phi0 V c t.val from rfl,
    show Phi0 V c (t.val + 1) = iprop(iprop(owns (c : Thread nD τ) scM fullShare (S1 V c) ∗ restS c) ∗ (∃ r, prngReg c r)) from rfl]
  by_cases hz : t.val = 0
  · have ht : t = t00 := Fin.ext hz
    subst ht
    rw [show Phi0 V c (t00 : Fin cfg0.N).val = Pipeline.ΦA spec0 c from rfl, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t00) ((hcond0 t00).mpr rfl) _ _ _ _ _ _ _ _ _ _ _ _ _ _ _ _
      (iblk0 V c 0 t00) (iblk0 V c 1 t00) (iblk0 V c 2 t00) (iblk0 V c 3 t00) (iblk0 V c 4 t00) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi0_pos V c _ hz]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_later c Set.univ (grid0.coords t) (fun h => hz ((hcond0 t).mp h)) _ _ _ _ _ _ _ _ _ _ _ _ _ _ _ _
      (iblk0 V c 0 t) (iblk0 V c 1 t) (iblk0 V c 2 t) (iblk0 V c 3 t) (iblk0 V c 4 t) (S1 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = Pipeline.ΦA spec0 c from rfl]

/-- After the last point the invariant gives the scoped rest and the generator register back: what the scratch holds
    is forgotten. -/
theorem hout0 (c : Dev nD) : (dat0 V c).Φ (Fin.last cfg0.N) ⊢ Pipeline.ΦA spec0 c := by
  rw [show (dat0 V c).Φ (Fin.last cfg0.N) = iprop(iprop(owns (c : Thread nD τ) scM fullShare (S1 V c) ∗ restS c) ∗ (∃ r, prngReg c r)) from rfl,
    PhiA0_eq]
  iintro ⟨⟨HS, Hrest⟩, Hg⟩
  isplitl [HS Hrest]
  · isplitl [HS]; · iexists _; iexact HS
    iexact Hrest
  iexact Hg

end Region0

end Cert.KernelIdeal.Hand

end
-- ==== Proof.Region1.lean ====
/-
  The second pallas_call (the second graph-convolution layer), as a pipeline region entered with the TensorCore's
  buffers at contents `V`: at every grid point `t` the body multiplies the point's 400 rows of the narrowed adjacency
  matrix by the whole second-layer support and adds the bias row, and stores the 400 × 128 result block whole. It keeps
  nothing between points: the region's invariant is the scoped rest and the generator register, untouched.
-/
import proofs.«127114_g57621281243476_cont_9to1c4b_629_11_alg».proof.Proof.Gen.KernelIdeal.Launch
import proofs.«127114_g57621281243476_cont_9to1c4b_629_11_alg».proof.Proof.Gen.KernelIdeal.Skeleton
import proofs.«127114_g57621281243476_cont_9to1c4b_629_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where the pipeline
    does not fetch, the block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rS2 : Rect S10000x128 := Rect.unit (s := S10000x128) ![0, 0] S10000x128.size inb_S10000x128_S10000x128_0_0
abbrev rB : Rect S1x128 := Rect.unit (s := S1x128) ![0, 0] S1x128.size inb_S1x128_S1x128_0_0
abbrev rG16 : Rect S400x10000 := Rect.unit (s := S400x10000) ![0, 0] S400x10000.size inb_S400x10000_S400x10000_0_0
abbrev rO : Rect S400x128 := Rect.unit (s := S400x128) ![0, 0] S400x128.size inb_S400x128_S400x128_0_0

/-- What the body leaves in the output window's buffer, from the input windows' blocks: its one store, of the whole
    block. -/
def out1_3 (x0 : Vec F S10000x128 .bf16) (x1 : Vec F S1x128 .f32) (x2 : Vec F S400x10000 .bf16) : Vec F S400x128 .f32 :=
  View.canon [⟨rO, k1_pay1 (View.ld x2 rG16) (View.ld x0 rS2) (View.ld x1 rB)⟩]

/-- The one store covers the buffer. -/
theorem cover1_3 (p0 : Vec F S400x128 .f32) (y : S400x128.Idx) :
    ∃ pc ∈ ([⟨rO, p0⟩] : List (View.Piece (Elt F) S400x128 .f32)), y ∈ pc.1.set :=
  View.cover_of_tiled [⟨rO, p0⟩] S400x128.size (by rfl) y

set_option maxHeartbeats 1000000 in
/-- The body on whole staging memrefs, the inputs' at read contents and the output's at anything, runs to the
    continuation holding the inputs' as they were and the output's at `out1_3` of the inputs'. -/
theorem sound_kernel1 (c : Dev nD) (E : Set ℕ) (i : grid1.Coords)
    (arg1 : Memref sig .tc .vmem S10000x128 .bf16) (harg1 : arg1.IsWhole) (arg2 : Memref sig .tc .vmem S1x128 .f32) (harg2 : arg2.IsWhole)
    (arg3 : Memref sig .tc .vmem S400x10000 .bf16) (harg3 : arg3.IsWhole) (arg4 : Memref sig .tc .vmem S400x128 .f32) (harg4 : arg4.IsWhole)
    (x0 : Vec F S10000x128 .bf16) (x1 : Vec F S1x128 .f32) (x2 : Vec F S400x10000 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__layer2_kernel i arg1 harg1 arg2 harg2 arg3 harg3 arg4 harg4) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the second pipeline on core `c`: the arrays as the region finds them; after the body at point
    `t` each input's buffer at its block and the output's at `out1_3` of the input blocks; the invariant the scoped rest
    and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Run.lean ====
/-
  The whole run of the kernel's program: @main is a reshape of the first bias, the first pallas_call, a reshape of the
  second bias, the second pallas_call. The TensorCore's unscoped buffers are followed through the four segments — a
  host stretch applies its operations, a region leaves its arrays at what its write-backs fold to and every other
  buffer as it found it — and every weakly fair execution terminates with every unscoped buffer at the last of these
  contents. Read at an argument that is the launch memory; read at the result it is the second region's output array.
-/
import proofs.«127114_g57621281243476_cont_9to1c4b_629_11_alg».proof.Proof.Gen.KernelIdeal.Launch
import proofs.«127114_g57621281243476_cont_9to1c4b_629_11_alg».proof.Proof.Gen.KernelIdeal.Skeleton
import proofs.«127114_g57621281243476_cont_9to1c4b_629_11_alg».proof.Proof.Gen.KernelIdeal.Points
import proofs.«127114_g57621281243476_cont_9to1c4b_629_11_alg».proof.Proof.Region0Dat
import proofs.«127114_g57621281243476_cont_9to1c4b_629_11_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first bias is reshaped to a row (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second bias is reshaped to a row (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host operation and no region writes one -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W1 m ρ c (Proc.devRef .tc main_arg0) := (W2_arr m ρ c 4).trans (((dat0 (V1 m ρ) c).arrAt_in 4 rfl _).trans (A_eq0 (V1 m ρ) c 4))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W1 m ρ c (Proc.devRef .tc main_arg4) := (W2_arr m ρ c 3).trans (((dat0 (V1 m ρ) c).arrAt_in 3 rfl _).trans (A_eq0 (V1 m ρ) c 3))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg5) := rfl

/-! ## The proof data family and the thread state -/

/-- No pipeline has a prefetched table. -/
abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The regions as segments -/

/-- The scoped rest and the generator register, regrouped as a region's exit hands them back. -/
theorem PhiA_split (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

set_option backward.isDefEq.respectTransparency.types false in
/-- The first pallas_call over the thread state: entered from every unscoped buffer at `W1`, left at `W2`. Its
    arrays are split out of the unscoped buffers and put back at the contents the write-backs leave; the generator
    register goes into the region's invariant and comes back; nothing is owed; the kernel has no semaphore of its own. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [Pipeline.ownSems0_none]
    exact (hout0 (V1 m ρ) c).trans (PhiA_split c)
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered from every unscoped buffer at `W3`, left at `W4`. Its
    arrays are split out of the unscoped buffers and put back at the contents the write-backs leave; the generator
    register goes into the region's invariant and comes back; nothing is owed; the kernel has no semaphore of its own. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) padm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters, every weakly fair execution of @main on the TensorCore terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) padm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The run with the result named: the result array ends at what the second pipeline's write-backs fold to, the
    arguments as launched. -/
theorem run_result : θ_run defs (onTc (τ := τ) (main (F := F))) ⟨m, fun _ => 0, ρ⟩ (fun r => ∀ c : Dev nD,
      r.2.mem ((c.tc : Thread nD τ).loc main_v3) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v3 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Hand

end
-- ==== Proof.PayAt.lean ====
import proofs.«127114_g57621281243476_cont_9to1c4b_629_11_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
The kernel's four stored values read at an index, at the ideal instance: floats are extended reals, a change of
float format is the identity, and a matrix product accumulated into zero is the plain sum over the contracted axis.
Each theorem below states one stored value at a row and a column as a closed expression in the loaded values.
-/

noncomputable section

namespace Cert.KernelIdeal.PayAt

open Idealize.ShloMosaic Idealize.ShloMosaic.ValueIdx Cert.KernelIdeal Cert.KernelIdeal.Gen

variable [Cert.KernelIdeal.Facts]

/-! ## The 10000×128 by 128×128 product -/

/-- The left operand's row coordinate is the output's row. -/
theorem lhs_d1_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column coordinate is the contracted one. -/
theorem lhs_d1_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row coordinate is the contracted one. -/
theorem rhs_d1_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column coordinate is the output's column. -/
theorem rhs_d1_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A 10000×128 by 128×128 product accumulated into zero, at (r, c): the sum over k of x(r,k)·y(k,c). -/
theorem mm_d1_at (x : FVec Ideal S10000x128 .f32) (y : FVec Ideal S128x128 .f32) (r : Fin 10000) (c : Fin 128) :
    matmul dot_S10000x128_S128x128_S10000x128_1_0_0_1_n_n none x y (constant S10000x128 .f32 0x00000000#32) (ix2 r c)
      = ∑ k : Fin 128, x (ix2 r k) * y (ix2 k c) := by
  refine (Ideal.matmul_constant_zero_apply dot_S10000x128_S128x128_S10000x128_1_0_0_1_n_n none x y (ix2 r c)).trans ?_
  rw [← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 r c) ((ValueIdx.contrEquiv1 dot_S10000x128_S128x128_S10000x128_1_0_0_1_n_n 128 rfl rfl).symm k) = ix2 r k := funext fun a => Fin.ext (by
    match a with
    | ⟨0, _⟩ => exact lhs_d1_0 _ _
    | ⟨1, _⟩ => exact (lhs_d1_1 _ _).trans hk)
  have er : dot_S10000x128_S128x128_S10000x128_1_0_0_1_n_n.rhsIdx (ix2 r c) ((ValueIdx.contrEquiv1 dot_S10000x128_S128x128_S10000x128_1_0_0_1_n_n 128 rfl rfl).symm k) = ix2 k c := funext fun a => Fin.ext (by
    match a with
    | ⟨0, _⟩ => exact (rhs_d1_0 _ _).trans hk
    | ⟨1, _⟩ => exact rhs_d1_1 _ _)
  rw [el, er]

/-! ## The 200×10000 by 10000×128 product -/

/-- The left operand's row coordinate is the output's row. -/
theorem lhs_d2_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
/-- The left operand's column coordinate is the contracted one. -/
theorem lhs_d2_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
/-- The right operand's row coordinate is the contracted one. -/
theorem rhs_d2_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
/-- The right operand's column coordinate is the output's column. -/
theorem rhs_d2_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- A 200×10000 by 10000×128 product accumulated into zero, at (r, c): the sum over k of x(r,k)·y(k,c). -/
theorem mm_d2_at (x : FVec Ideal S200x10000 .f32) (y : FVec Ideal S10000x128 .f32) (r : Fin 200) (c : Fin 128) :
    matmul dot_S200x10000_S10000x128_S200x128_1_0_0_1_n_n none x y (constant S200x128 .f32 0x00000000#32) (ix2 r c)
      = ∑ k : Fin 10000, x (ix2 r k) * y (ix2 k c) := by
  refine (Ideal.matmul_constant_zero_apply dot_S200x10000_S10000x128_S200x128_1_0_0_1_n_n none x y (ix2 r c)).trans ?_
  rw [← Equiv.sum_comp (ValueIdx.contrEquiv1 dot_S200x10000_S10000x128_S200x128_1_0_0_1_n_n 10000 rfl rfl).symm]
  refine Finset.sum_congr rfl fun k _ => ?_
  have hk := ValueIdx.contrEquiv1_symm_val dot_S200x10000_S10000x128_S200x128_1_0_0_1_n_n 10000 rfl rfl k
  have el : dot_S200x10000_S10000x128_S200x128_1_0_0_1_n_n.lhsIdx (ix2 r c) ((ValueIdx.contrEquiv1 dot_S200x10000_S10000x128_S200x128_1_0_0_1_n_n 10000 rfl rfl).symm k) = ix2 r k := funext fun a => Fin.ext (by
    match a with
    | ⟨0, _⟩ => exact lhs_d2_0 _ _
    | ⟨1, _⟩ => exact (lhs_d2_1 _ _).trans hk)
  have er : dot_S200x10000_S10000x128_S200x128_1_0_0_1_n_n.rhsIdx (ix2 r c) ((ValueIdx.contrEquiv1 dot_S200x10000_S10000x128_S200x128_1_0_0_1_n_n 10000 rfl rfl).symm k) = ix2 k c := funext fun a => Fin.ext (by
    match a with
    | ⟨0, _⟩ => exact (rhs_d2_0 _ _).trans hk
    | ⟨1, _⟩ => exact rhs_d2_1 _ _)
  rw [el, er]

/-! ## The 200×128 by 128×128 product -/

/-- The left operand's row coordinate is the output's row. -/
theorem lhs_d3_0 (i : S200x128.Idx) (q : dot_S200x128_S128x128_S200x128_1_0_0_1_n_n.contr.Idx) :
    (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
/-- The left operand's column coordinate is the contracted one. -/
theorem lhs_d3_1 (i : S200x128.Idx) (q : dot_S200x128_S128x128_S200x128_1_0_0_1_n_n.contr.Idx) :
    (dot_S200x128_S128x128_S200x128_1_0_0_1_n_n.lhsIdx i q 1).val = (q ⟨0, by decide⟩).val :=
  dot_S200x128_S128x128_S200x128_1_0_0_1_n_n.lhsIdx_val_of_single rfl i q
/-- The right operand's row coordinate is the contracted one. -/
theorem rhs_d3_0 (i : S200x128.Idx) (q : dot_S200x128_S128x128_S200x128_1_0_0_1_n_n.contr.Idx) :
    (dot_S200x128_S128x128_S200x128_1_0_0_1_n_n.rhsIdx i q 0).val = (q ⟨0, by decide⟩).val :=
  dot_S200x128_S128x128_S200x128_1_0_0_1_n_n.rhsIdx_val_of_single rfl i q
/-- The right operand's column coordinate is the output's column. -/
theorem rhs_d3_1 (i : S200x128.Idx) (q : dot_S200x128_S128x128_S200x128_1_0_0_1_n_n.contr.Idx) :
    (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- A 200×128 by 128×128 product accumulated into zero, at (r, c): the sum over k of x(r,k)·y(k,c). -/
theorem mm_d3_at (x : FVec Ideal S200x128 .f32) (y : FVec Ideal S128x128 .f32) (r : Fin 200) (c : Fin 128) :
    matmul dot_S200x128_S128x128_S200x128_1_0_0_1_n_n none x y (constant S200x128 .f32 0x00000000#32) (ix2 r c)
      = ∑ k : Fin 128, x (ix2 r k) * y (ix2 k c) := by
  refine (Ideal.matmul_constant_zero_apply dot_S200x128_S128x128_S200x128_1_0_0_1_n_n none x y (ix2 r c)).trans ?_
  rw [← Equiv.sum_comp (ValueIdx.contrEquiv1 dot_S200x128_S128x128_S200x128_1_0_0_1_n_n 128 rfl rfl).symm]
  refine Finset.sum_congr rfl fun k _ => ?_
  have hk := ValueIdx.contrEquiv1_symm_val dot_S200x128_S128x128_S200x128_1_0_0_1_n_n 128 rfl rfl k
  have el : dot_S200x128_S128x128_S200x128_1_0_0_1_n_n.lhsIdx (ix2 r c) ((ValueIdx.contrEquiv1 dot_S200x128_S128x128_S200x128_1_0_0_1_n_n 128 rfl rfl).symm k) = ix2 r k := funext fun a => Fin.ext (by
    match a with
    | ⟨0, _⟩ => exact lhs_d3_0 _ _
    | ⟨1, _⟩ => exact (lhs_d3_1 _ _).trans hk)
  have er : dot_S200x128_S128x128_S200x128_1_0_0_1_n_n.rhsIdx (ix2 r c) ((ValueIdx.contrEquiv1 dot_S200x128_S128x128_S200x128_1_0_0_1_n_n 128 rfl rfl).symm k) = ix2 k c := funext fun a => Fin.ext (by
    match a with
    | ⟨0, _⟩ => exact (rhs_d3_0 _ _).trans hk
    | ⟨1, _⟩ => exact rhs_d3_1 _ _)
  rw [el, er]

/-! ## The 400×10000 by 10000×128 product -/

/-- The left operand's row coordinate is the output's row. -/
theorem lhs_d4_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- The left operand's column coordinate is the contracted one. -/
theorem lhs_d4_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The right operand's row coordinate is the contracted one. -/
theorem rhs_d4_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- The right operand's column coordinate is the output's column. -/
theorem rhs_d4_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A 400×10000 by 10000×128 product accumulated into zero, at (r, c): the sum over k of x(r,k)·y(k,c). -/
theorem mm_d4_at (x : FVec Ideal S400x10000 .bf16) (y : FVec Ideal S10000x128 .bf16) (r : Fin 400) (c : Fin 128) :
    matmul dot_S400x10000_S10000x128_S400x128_1_0_0_1_n_n none x y (constant S400x128 .f32 0x00000000#32) (ix2 r c)
      = ∑ k : Fin 10000, x (ix2 r k) * y (ix2 k c) := by
  refine (Ideal.matmul_constant_zero_apply dot_S400x10000_S10000x128_S400x128_1_0_0_1_n_n none x y (ix2 r c)).trans ?_
  rw [← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 r c) ((ValueIdx.contrEquiv1 dot_S400x10000_S10000x128_S400x128_1_0_0_1_n_n 10000 rfl rfl).symm k) = ix2 r k := funext fun a => Fin.ext (by
    match a with
    | ⟨0, _⟩ => exact lhs_d4_0 _ _
    | ⟨1, _⟩ => exact (lhs_d4_1 _ _).trans hk)
  have er : dot_S400x10000_S10000x128_S400x128_1_0_0_1_n_n.rhsIdx (ix2 r c) ((ValueIdx.contrEquiv1 dot_S400x10000_S10000x128_S400x128_1_0_0_1_n_n 10000 rfl rfl).symm k) = ix2 k c := funext fun a => Fin.ext (by
    match a with
    | ⟨0, _⟩ => exact (rhs_d4_0 _ _).trans hk
    | ⟨1, _⟩ => exact rhs_d4_1 _ _)
  rw [el, er]

/-! ## The stored values -/

/-- The first stored value at (l, j): the product x·w there, ∑ i, x(l,i)·w(i,j). -/
theorem pay1_at (x : Vec Ideal S10000x128 .f32) (w : Vec Ideal S128x128 .f32) (l : Fin 10000) (j : Fin 128) :
    k0_pay1 (F := Ideal) x w (ix2 l j) = ∑ i : Fin 128, x (ix2 l i) * w (ix2 i j) := by
  unfold k0_pay1
  rw [shapeCast_self]
  exact mm_d1_at x w l j

/-- The second stored value at (p, l): the loaded value there, the change of float format being the identity. -/
theorem pay2_at (gb : Vec Ideal S200x10000 .f32) (p : Fin 200) (l : Fin 10000) :
    k0_pay2 (F := Ideal) gb (ix2 p l) = gb (ix2 p l) := rfl

/-- The third stored value at (p, c): with h(p,j) = max((∑ l, gb(p,l)·s(l,j)) + b(0,j), 0), the sum ∑ j, h(p,j)·w(j,c). -/
theorem pay3_at (gb : Vec Ideal S200x10000 .f32) (s : Vec Ideal S10000x128 .f32) (b : Vec Ideal S1x128 .f32) (w : Vec Ideal S128x128 .f32) (p : Fin 200) (c : Fin 128) :
    k0_pay3 (F := Ideal) gb s b w (ix2 p c) = ∑ j : Fin 128, max ((∑ l : Fin 10000, gb (ix2 p l) * s (ix2 l j)) + b (ix2 (0 : Fin 1) j)) 0 * w (ix2 j c) := by
  unfold k0_pay3
  rw [shapeCast_self]
  refine (truncf_apply (ψ := .bf16) _ Facts₀.bitsLt_bf16_f32 (ix2 p c)).trans ?_
  refine (mm_d3_at _ w p c).trans ?_
  refine Finset.sum_congr rfl fun j _ => ?_
  refine congrArg (· * w (ix2 j c)) ?_
  rw [maximumf_apply, addf_apply, broadcast_apply, mm_d2_at gb s p j, broadcastTo_1b_ab_apply]
  show max _ (Ideal.ofBits .f32 0x00000000#32) = _
  rw [Ideal.ofBits_zero_f32]

/-- The second kernel's stored value at (p, c): (∑ k, gb(p,k)·s2(k,c)) + b(0,c). -/
theorem k1pay1_at (gb : Vec Ideal S400x10000 .bf16) (s2 : Vec Ideal S10000x128 .bf16) (b : Vec Ideal S1x128 .f32) (p : Fin 400) (c : Fin 128) :
    k1_pay1 (F := Ideal) gb s2 b (ix2 p c) = (∑ k : Fin 10000, gb (ix2 p k) * s2 (ix2 k c)) + b (ix2 (0 : Fin 1) c) := by
  unfold k1_pay1
  rw [shapeCast_self, shapeCast_self, shapeCast_self]
  rw [addf_apply, mm_d4_at gb s2 p c, broadcastTo_1b_ab_apply]

end Cert.KernelIdeal.PayAt

end
-- ==== Proof.Spec.lean ====
/-
  The two-layer graph convolution as ONE function of the six argument arrays, over the extended reals:

      support1[l, j] = Σ_i x[l, i] · W1[i, j]
      hidden[k, j]   = max (Σ_l g[k, l] · support1[l, j] + b1[j]) 0
      support2[k, c] = Σ_j hidden[k, j] · W2[j, c]
      out[r, c]      = Σ_k g[r, k] · support2[k, c] + b2[c]

  Both programs compute exactly this nest of sums, in this grouping: no sum is reassociated and no factor is moved
  across a sum, so the comparison needs no law of the extended reals beyond what each operation is at an index.
-/
import Idealize.ShloMosaic.PureOps.Ideal
import Idealize.ShloMosaic.Lib.ValueIdx

noncomputable section

namespace Cert.Spec

open Idealize.ShloMosaic Idealize.ShloMosaic.ValueIdx

/-- The shapes of the arguments: the adjacency matrix, the node features (and every node-by-feature array), a weight
    matrix, a bias. -/
abbrev Snn : Shape := ⟨2, ![10000, 10000]⟩
abbrev Snf : Shape := ⟨2, ![10000, 128]⟩
abbrev Sff : Shape := ⟨2, ![128, 128]⟩
abbrev Sf : Shape := ⟨1, ![128]⟩

variable (g : Snn.Idx → EReal) (x : Snf.Idx → EReal) (W1 : Sff.Idx → EReal) (b1 : Sf.Idx → EReal)
  (W2 : Sff.Idx → EReal) (b2 : Sf.Idx → EReal)

/-- The first layer's support: features times the first weight matrix. -/
def support1 (l : Fin 10000) (j : Fin 128) : EReal := ∑ i : Fin 128, x (ix2 l i) * W1 (ix2 i j)

/-- The hidden layer: adjacency times support, plus the bias, clamped below at zero. -/
def hidden (k : Fin 10000) (j : Fin 128) : EReal :=
  max ((∑ l : Fin 10000, g (ix2 k l) * support1 x W1 l j) + b1 (ix1 j)) 0

/-- The second layer's support: hidden layer times the second weight matrix. -/
def support2 (k : Fin 10000) (c : Fin 128) : EReal := ∑ j : Fin 128, hidden g x W1 b1 k j * W2 (ix2 j c)

/-- The result at row `r`, column `c`. -/
def outAt (r : Fin 10000) (c : Fin 128) : EReal :=
  (∑ k : Fin 10000, g (ix2 r k) * support2 g x W1 b1 W2 k c) + b2 (ix1 c)

/-- The result array. -/
def G : Snf.Idx → EReal := fun i => outAt g x W1 b1 W2 b2 ⟨(i 0).val, (i 0).isLt⟩ ⟨(i 1).val, (i 1).isLt⟩

theorem G_ix2 (r : Fin 10000) (c : Fin 128) : G g x W1 b1 W2 b2 (ix2 r c) = outAt g x W1 b1 W2 b2 r c := rfl

end Cert.Spec

end
-- ==== Proof.Final0.lean ====
/-
  The first pallas_call's two output arrays after the run, at the ideal values, as functions of the arrays the region
  is entered with: the narrowed adjacency matrix is the adjacency matrix itself (a change of float format is the
  identity), and the second-layer support is the specification's `support2` of the adjacency matrix, the features, the
  two weight matrices and the bias row. Each grid point writes back its own 200 rows, and the 50 points' blocks tile
  each array.
-/
import proofs.«127114_g57621281243476_cont_9to1c4b_629_11_alg».proof.Proof.Gen.KernelIdeal.Launch
import proofs.«127114_g57621281243476_cont_9to1c4b_629_11_alg».proof.Proof.Gen.KernelIdeal.Skeleton
import proofs.«127114_g57621281243476_cont_9to1c4b_629_11_alg».proof.Proof.Gen.KernelIdeal.Points
import proofs.«127114_g57621281243476_cont_9to1c4b_629_11_alg».proof.Proof.Region0Dat
import proofs.«127114_g57621281243476_cont_9to1c4b_629_11_alg».proof.Proof.PayAt
import proofs.«127114_g57621281243476_cont_9to1c4b_629_11_alg».proof.Proof.Spec
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section

variable (V : (c : Dev nD) → (b : Ref sig .tc) → Buf (Elt Ideal) ((c : Thread nD τ).loc b))

/-- The arrays the first region reads, at their literal types. -/
abbrev gA (c : Dev nD) : Vec Ideal S10000x10000 .f32 := V c main_arg0
abbrev xA (c : Dev nD) : Vec Ideal S10000x128 .f32 := V c main_arg1
abbrev w1A (c : Dev nD) : Vec Ideal S128x128 .f32 := V c main_arg2
abbrev b1A (c : Dev nD) : Vec Ideal S1x128 .f32 := V c main_v0
abbrev w2A (c : Dev nD) : Vec Ideal S128x128 .f32 := V c main_arg4

/-- The narrowed adjacency matrix: the adjacency matrix itself. -/
def G16 (c : Dev nD) : Vec Ideal S10000x10000 .bf16 := fun i => gA V c i

/-- The second-layer support, by the specification, the bias read off the bias row. -/
def S2 (c : Dev nD) : Vec Ideal S10000x128 .bf16 := fun i =>
  Cert.Spec.support2 (gA V c) (xA V c) (w1A V c) (fun j => b1A V c (ix2 (0 : Fin 1) ⟨(j 0).val, (j 0).isLt⟩)) (w2A V c)
    ⟨(i 0).val, (i 0).isLt⟩ ⟨(i 1).val, (i 1).isLt⟩

/-- The origin of a rank-2 rectangle, as a constant function. -/
theorem origin2 : (![0, 0] : Fin 2 → Nat) = fun _ => 0 := funext fun a => by fin_cases a <;> rfl

/-- The block index maps, decided over the 50 points: the four whole-array windows sit at block (0, 0); the adjacency
    window and the two output windows are at block (t, 0). -/
theorem block_index0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- What point `t` writes back of the narrowed adjacency matrix is block `t` of the adjacency matrix: the adjacency
    window and the output window are both at rows 200·t … 200·t + 199, and the stored value is the loaded one. -/
theorem flushed6_eq (c : Dev nD) (t : Fin cfg0.N) :
    (dat0 (F := Ideal) V c).flushed 6 t = ((cfg0.win 6).blk t).view.read (Elt Ideal) (G16 V c) := by
  show (cfg0.win 6).cut (grid0.coords t) ((dat0 (F := Ideal) V c).after 6 t) = _
  rw [after0_6]
  unfold out0_6
  rw [View.canon_unit_zero origin2]
  simp only [View.ld_unit_zero (S := S200x10000) origin2]
  obtain ⟨-, -, -, -, -, -, -, -, e40, e41, -, -, e60, e61⟩ := block_index0 t
  funext j
  obtain ⟨p, q, rfl⟩ : ∃ (p : Fin 200) (q : Fin 10000), j = ix2 p q := ⟨j 0, j 1, eq_ix2 j⟩
  show k0_pay2 (F := Ideal) (iblk0 V c 4 t) (ix2 p q) = G16 V c (((cfg0.win 6).blk t).view.emb (ix2 p q))
  refine (PayAt.pay2_at (iblk0 V c 4 t) p q).trans ?_
  show V c main_arg0 (((cfg0.win 4).blk t).view.emb (ix2 p q)) = V c main_arg0 (((cfg0.win 6).blk t).view.emb (ix2 p q))
  refine congrArg (V c main_arg0) ?_
  funext a; apply Fin.ext
  match a with
  | ⟨0, _⟩ => show win0_4.index t (0 : Fin 2) * 200 + 1 * p.val = win0_6.index t (0 : Fin 2) * 200 + 1 * p.val; omega
  | ⟨1, _⟩ => show win0_4.index t (1 : Fin 2) * 10000 + 1 * q.val = win0_6.index t (1 : Fin 2) * 10000 + 1 * q.val; omega

/-- An index of the array is in point `t`'s block of the narrowed adjacency matrix iff each coordinate is in the block's
    range on its axis. -/
theorem mem_blk6 (t : Fin cfg0.N) (i : S10000x10000.Idx) :
    i ∈ ((cfg0.win 6).blk t).view.set ↔ ∀ a : Fin 2, win0_6.index t a * S200x10000.size a ≤ (i a).val ∧ (i a).val < win0_6.index t a * S200x10000.size a + S200x10000.size a := by
  show i ∈ ((View.whole main_v1_1).slice (win0_6.rect t)).set ↔ _
  rw [View.set_slice_whole, Rect.mem_set_unit]
  exact Iff.rfl

/-- The 50 blocks of 200 rows tile the narrowed adjacency matrix: row `r` is in the block of point `r / 200`. -/
theorem cover6 (i : S10000x10000.Idx) :
    ∃ t : Fin cfg0.N, (cfg0.win 6).flush t = true ∧ i ∈ ((cfg0.win 6).blk t).view.set := by
  have hi0 : (i 0).val < 10000 := (i 0).isLt
  have hi1 : (i 1).val < 10000 := (i 1).isLt
  have hN : cfg0.N = 50 := N_0
  have ht : (i 0).val / 200 < cfg0.N := by rw [hN]; omega
  refine ⟨⟨(i 0).val / 200, ht⟩, flush0_6 _, ?_⟩
  rw [mem_blk6]
  obtain ⟨-, -, -, -, -, -, -, -, -, -, -, -, e60, e61⟩ := block_index0 ⟨(i 0).val / 200, ht⟩
  have e60' : win0_6.index ⟨(i 0).val / 200, ht⟩ (0 : Fin 2) = (i 0).val / 200 := e60
  intro a
  match a with
  | ⟨0, _⟩ =>
    show win0_6.index ⟨(i 0).val / 200, ht⟩ (0 : Fin 2) * 200 ≤ (i 0).val ∧ (i 0).val < win0_6.index ⟨(i 0).val / 200, ht⟩ (0 : Fin 2) * 200 + 200
    omega
  | ⟨1, _⟩ =>
    show win0_6.index ⟨(i 0).val / 200, ht⟩ (1 : Fin 2) * 10000 ≤ (i 1).val ∧ (i 1).val < win0_6.index ⟨(i 0).val / 200, ht⟩ (1 : Fin 2) * 10000 + 10000
    omega

/-! ## The input blocks' entries as the arrays' entries -/

/-- The features window is the whole array: its block's entry is the array's. -/
theorem blk0_at (c : Dev nD) (t : Fin cfg0.N) (l : Fin 10000) (i : Fin 128) :
    iblk0 (F := Ideal) V c 0 t (ix2 l i) = xA V c (ix2 l i) := by
  obtain ⟨e00, e01, -⟩ := block_index0 t
  show V c main_arg1 (((cfg0.win 0).blk t).view.emb (ix2 l i)) = V c main_arg1 (ix2 l i)
  refine congrArg (V c main_arg1) ?_
  funext a; apply Fin.ext
  match a with
  | ⟨0, _⟩ => show win0_0.index t (0 : Fin 2) * 10000 + 1 * l.val = l.val; omega
  | ⟨1, _⟩ => show win0_0.index t (1 : Fin 2) * 128 + 1 * i.val = i.val; omega

/-- The first weight matrix's window is the whole array. -/
theorem blk1_at (c : Dev nD) (t : Fin cfg0.N) (i : Fin 128) (j : Fin 128) :
    iblk0 (F := Ideal) V c 1 t (ix2 i j) = w1A V c (ix2 i j) := by
  obtain ⟨-, -, e10, e11, -⟩ := block_index0 t
  show V c main_arg2 (((cfg0.win 1).blk t).view.emb (ix2 i j)) = V c main_arg2 (ix2 i j)
  refine congrArg (V c main_arg2) ?_
  funext a; apply Fin.ext
  match a with
  | ⟨0, _⟩ => show win0_1.index t (0 : Fin 2) * 128 + 1 * i.val = i.val; omega
  | ⟨1, _⟩ => show win0_1.index t (1 : Fin 2) * 128 + 1 * j.val = j.val; omega

/-- The bias row's window is the whole row. -/
theorem blk2_at (c : Dev nD) (t : Fin cfg0.N) (j : Fin 128) :
    iblk0 (F := Ideal) V c 2 t (ix2 (0 : Fin 1) j) = b1A V c (ix2 (0 : Fin 1) j) := by
  obtain ⟨-, -, -, -, e20, e21, -⟩ := block_index0 t
  show V c main_v0 (((cfg0.win 2).blk t).view.emb (ix2 (0 : Fin 1) j)) = V c main_v0 (ix2 (0 : Fin 1) j)
  refine congrArg (V c main_v0) ?_
  funext a; apply Fin.ext
  match a with
  | ⟨0, _⟩ => show win0_2.index t (0 : Fin 2) * 1 + 1 * (0 : Fin 1).val = (0 : Fin 1).val; omega
  | ⟨1, _⟩ => show win0_2.index t (1 : Fin 2) * 128 + 1 * j.val = j.val; omega

/-- The second weight matrix's window is the whole array. -/
theorem blk3_at (c : Dev nD) (t : Fin cfg0.N) (j : Fin 128) (q : Fin 128) :
    iblk0 (F := Ideal) V c 3 t (ix2 j q) = w2A V c (ix2 j q) := by
  obtain ⟨-, -, -, -, -, -, e30, e31, -⟩ := block_index0 t
  show V c main_arg4 (((cfg0.win 3).blk t).view.emb (ix2 j q)) = V c main_arg4 (ix2 j q)
  refine congrArg (V c main_arg4) ?_
  funext a; apply Fin.ext
  match a with
  | ⟨0, _⟩ => show win0_3.index t (0 : Fin 2) * 128 + 1 * j.val = j.val; omega
  | ⟨1, _⟩ => show win0_3.index t (1 : Fin 2) * 128 + 1 * q.val = q.val; omega

/-- Point `t`'s adjacency block is rows 200·t … 200·t + 199 of the adjacency matrix. -/
theorem blk4_at (c : Dev nD) (t : Fin cfg0.N) (p : Fin 200) (l : Fin 10000) (hr : t.val * 200 + p.val < 10000) :
    iblk0 (F := Ideal) V c 4 t (ix2 p l) = gA V c (ix2 (⟨t.val * 200 + p.val, hr⟩ : Fin 10000) l) := by
  obtain ⟨-, -, -, -, -, -, -, -, e40, e41, -⟩ := block_index0 t
  show V c main_arg0 (((cfg0.win 4).blk t).view.emb (ix2 p l)) = V c main_arg0 (ix2 (⟨t.val * 200 + p.val, hr⟩ : Fin 10000) l)
  refine congrArg (V c main_arg0) ?_
  funext a; apply Fin.ext
  match a with
  | ⟨0, _⟩ => show win0_4.index t (0 : Fin 2) * 200 + 1 * p.val = t.val * 200 + p.val; omega
  | ⟨1, _⟩ => show win0_4.index t (1 : Fin 2) * 10000 + 1 * l.val = l.val; omega

/-- The kept scratch is the first layer's support of the features and the first weight matrix. -/
theorem S1_at (c : Dev nD) (l : Fin 10000) (j : Fin 128) :
    S1 (F := Ideal) V c (ix2 l j) = Cert.Spec.support1 (xA V c) (w1A V c) l j := by
  unfold S1 sc0
  rw [View.canon_unit_zero origin2]
  simp only [View.ld_unit_zero (S := S10000x128) origin2, View.ld_unit_zero (S := S128x128) origin2]
  refine (PayAt.pay1_at (iblk0 V c 0 t00) (iblk0 V c 1 t00) l j).trans ?_
  unfold Cert.Spec.support1
  refine Finset.sum_congr rfl fun i _ => ?_
  rw [blk0_at, blk1_at]

/-- What point `t` writes back of the second-layer support is block `t` of the specification's second-layer support:
    at row p of the block, column q, it is Σ_j max (Σ_l g[200·t + p, l] · support1[l, j] + b1[0, j]) 0 · W2[j, q]. -/
theorem flushed5_eq (c : Dev nD) (t : Fin cfg0.N) :
    (dat0 (F := Ideal) V c).flushed 5 t = ((cfg0.win 5).blk t).view.read (Elt Ideal) (S2 V c) := by
  show (cfg0.win 5).cut (grid0.coords t) ((dat0 (F := Ideal) V c).after 5 t) = _
  rw [after0_5]
  unfold out0_5
  rw [View.canon_unit_zero origin2]
  simp only [View.ld_unit_zero (S := S200x10000) origin2, View.ld_unit_zero (S := S10000x128) origin2,
    View.ld_unit_zero (S := S1x128) origin2, View.ld_unit_zero (S := S128x128) origin2]
  funext j
  obtain ⟨p, q, rfl⟩ : ∃ (p : Fin 200) (q : Fin 128), j = ix2 p q := ⟨j 0, j 1, eq_ix2 j⟩
  show k0_pay3 (F := Ideal) (iblk0 V c 4 t) (S1 V c) (iblk0 V c 2 t) (iblk0 V c 3 t) (ix2 p q) = S2 V c (((cfg0.win 5).blk t).view.emb (ix2 p q))
  refine (PayAt.pay3_at (iblk0 V c 4 t) (S1 V c) (iblk0 V c 2 t) (iblk0 V c 3 t) p q).trans ?_
  have hN : cfg0.N = 50 := N_0
  have ht : t.val < 50 := hN ▸ t.isLt
  have hp : p.val < 200 := p.isLt
  have hr : t.val * 200 + p.val < 10000 := by omega
  obtain ⟨-, -, -, -, -, -, -, -, -, -, e50, e51, -, -⟩ := block_index0 t
  have hemb : ((cfg0.win 5).blk t).view.emb (ix2 p q) = ix2 (⟨t.val * 200 + p.val, hr⟩ : Fin 10000) q := by
    funext a; apply Fin.ext
    match a with
    | ⟨0, _⟩ => show win0_5.index t (0 : Fin 2) * 200 + 1 * p.val = t.val * 200 + p.val; omega
    | ⟨1, _⟩ => show win0_5.index t (1 : Fin 2) * 128 + 1 * q.val = q.val; omega
  rw [hemb]
  show _ = Cert.Spec.support2 (gA V c) (xA V c) (w1A V c) (fun j => b1A V c (ix2 (0 : Fin 1) ⟨(j 0).val, (j 0).isLt⟩)) (w2A V c)
    (⟨t.val * 200 + p.val, hr⟩ : Fin 10000) q
  unfold Cert.Spec.support2 Cert.Spec.hidden
  refine Finset.sum_congr rfl fun j _ => ?_
  rw [blk2_at, blk3_at]
  refine congrArg (fun z => max (z + b1A V c (ix2 (0 : Fin 1) j)) 0 * w2A V c (ix2 j q)) ?_
  refine Finset.sum_congr rfl fun l _ => ?_
  rw [blk4_at V c t p l hr, S1_at]

/-- An index of the array is in point `t`'s block of the second-layer support iff each coordinate is in the block's
    range on its axis. -/
theorem mem_blk5 (t : Fin cfg0.N) (i : S10000x128.Idx) :
    i ∈ ((cfg0.win 5).blk t).view.set ↔ ∀ a : Fin 2, win0_5.index t a * S200x128.size a ≤ (i a).val ∧ (i a).val < win0_5.index t a * S200x128.size a + S200x128.size a := by
  show i ∈ ((View.whole main_v1_0).slice (win0_5.rect t)).set ↔ _
  rw [View.set_slice_whole, Rect.mem_set_unit]
  exact Iff.rfl

/-- The 50 blocks of 200 rows tile the second-layer support: row `r` is in the block of point `r / 200`. -/
theorem cover5 (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 50 := N_0
  have ht : (i 0).val / 200 < cfg0.N := by rw [hN]; omega
  refine ⟨⟨(i 0).val / 200, ht⟩, flush0_5 _, ?_⟩
  rw [mem_blk5]
  obtain ⟨-, -, -, -, -, -, -, -, -, -, e50, e51, -, -⟩ := block_index0 ⟨(i 0).val / 200, ht⟩
  have e50' : win0_5.index ⟨(i 0).val / 200, ht⟩ (0 : Fin 2) = (i 0).val / 200 := e50
  intro a
  match a with
  | ⟨0, _⟩ =>
    show win0_5.index ⟨(i 0).val / 200, ht⟩ (0 : Fin 2) * 200 ≤ (i 0).val ∧ (i 0).val < win0_5.index ⟨(i 0).val / 200, ht⟩ (0 : Fin 2) * 200 + 200
    omega
  | ⟨1, _⟩ =>
    show win0_5.index ⟨(i 0).val / 200, ht⟩ (1 : Fin 2) * 128 ≤ (i 1).val ∧ (i 1).val < win0_5.index ⟨(i 0).val / 200, ht⟩ (1 : Fin 2) * 128 + 128
    omega

/-- The narrowed adjacency array after the run. -/
theorem final0_6 (c : Dev nD) : (dat0 (F := Ideal) V c).arrAt 6 cfg0.N = G16 V c := by
  exact (dat0 (F := Ideal) V c).arrAt_eq_of_cover 6 (G16 V c) (fun t _ => flushed6_eq V c t) cover6

/-- The second-layer support array after the run. -/
theorem final0_5 (c : Dev nD) : (dat0 (F := Ideal) V c).arrAt 5 cfg0.N = S2 V c := by
  exact (dat0 (F := Ideal) V c).arrAt_eq_of_cover 5 (S2 V c) (fun t _ => flushed5_eq V c t) cover5

end

end Cert.KernelIdeal.Hand

end
-- ==== Proof.Final1.lean ====
/-
  The second pallas_call's output array after the run, at the ideal values, as ONE function of the arrays the region is
  entered with: row r, column c of the result is the sum over k of the narrowed adjacency entry (r, k) times the
  second-layer support entry (k, c), plus the bias row's entry c. Each grid point writes back its own 400 rows of
  that function, and the 25 points' blocks tile the array.
-/
import proofs.«127114_g57621281243476_cont_9to1c4b_629_11_alg».proof.Proof.Gen.KernelIdeal.Launch
import proofs.«127114_g57621281243476_cont_9to1c4b_629_11_alg».proof.Proof.Gen.KernelIdeal.Skeleton
import proofs.«127114_g57621281243476_cont_9to1c4b_629_11_alg».proof.Proof.Gen.KernelIdeal.Points
import proofs.«127114_g57621281243476_cont_9to1c4b_629_11_alg».proof.Proof.Region1
import proofs.«127114_g57621281243476_cont_9to1c4b_629_11_alg».proof.Proof.PayAt
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section

variable (V : (c : Dev nD) → (b : Ref sig .tc) → Buf (Elt Ideal) ((c : Thread nD τ).loc b))

/-- The arrays the second region reads, at their literal types. -/
abbrev g16A (c : Dev nD) : Vec Ideal S10000x10000 .bf16 := V c main_v1_1
abbrev s2A (c : Dev nD) : Vec Ideal S10000x128 .bf16 := V c main_v1_0
abbrev b2A (c : Dev nD) : Vec Ideal S1x128 .f32 := V c main_v2

/-- The result array as one function of them. -/
def Out1 (c : Dev nD) : Vec Ideal S10000x128 .f32 := fun i =>
  (∑ k : Fin 10000, g16A V c (ix2 ⟨(i 0).val, (i 0).isLt⟩ k) * s2A V c (ix2 k ⟨(i 1).val, (i 1).isLt⟩))
    + b2A V c (ix2 (0 : Fin 1) ⟨(i 1).val, (i 1).isLt⟩)

/-- The zero offset of a whole-buffer rectangle, as a function. -/
theorem hz1 : (![0, 0] : Fin 2 → Nat) = fun _ => 0 := funext fun a => by fin_cases a <;> rfl

/-- The result function at an index whose row is r and whose column is q. -/
theorem Out1_at (c : Dev nD) (i : S10000x128.Idx) (r : Fin 10000) (q : Fin 128)
    (h0 : (i 0).val = r.val) (h1 : (i 1).val = q.val) :
    Out1 V c i = (∑ k : Fin 10000, g16A V c (ix2 r k) * s2A V c (ix2 k q)) + b2A V c (ix2 (0 : Fin 1) q) := by
  have e0 : (⟨(i 0).val, (i 0).isLt⟩ : Fin 10000) = r := Fin.ext h0
  have e1 : (⟨(i 1).val, (i 1).isLt⟩ : Fin 128) = q := Fin.ext h1
  unfold Out1
  rw [e0, e1]

/-- The index maps over the 25 grid points: the support and the bias row are fetched whole (block index 0 on both
    axes); the adjacency rows and the result rows move together, block t on the row axis and block 0 on the column axis. -/
theorem idx_facts1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is rows 400·t … 400·t + 399 of the result function. -/
theorem flushed1_3_eq (c : Dev nD) (t : Fin cfg1.N) :
    (dat1 (F := Ideal) V c).flushed 3 t = ((cfg1.win 3).blk t).view.read (Elt Ideal) (Out1 V c) := by
  show (cfg1.win 3).cut (grid1.coords t) ((dat1 (F := Ideal) V c).after 3 t) = _
  rw [after1_3]
  unfold out1_3
  rw [View.canon_unit_zero hz1]
  simp only [View.ld_unit_zero (S := S10000x128) hz1, View.ld_unit_zero (S := S1x128) hz1, View.ld_unit_zero (S := S400x10000) hz1]
  obtain ⟨e00, e01, e10, e11, e20, e21, e30, e31⟩ := idx_facts1 t
  funext j
  obtain ⟨p, q, rfl⟩ : ∃ (p : Fin 400) (q : Fin 128), j = ix2 p q := ⟨j 0, j 1, eq_ix2 j⟩
  have ht : t.val < 25 := t.isLt
  have hp : p.val < 400 := p.isLt
  obtain ⟨r, hr⟩ : ∃ r : Fin 10000, r.val = t.val * 400 + p.val := ⟨⟨t.val * 400 + p.val, by omega⟩, rfl⟩
  have hR : Out1 V c (((cfg1.win 3).blk t).view.emb (ix2 p q))
      = (∑ k : Fin 10000, g16A V c (ix2 r k) * s2A V c (ix2 k q)) + b2A V c (ix2 (0 : Fin 1) q) :=
    Out1_at V c _ r q
      (by show win1_3.index t (0 : Fin 2) * 400 + 1 * p.val = r.val; omega)
      (by show win1_3.index t (1 : Fin 2) * 128 + 1 * q.val = q.val; omega)
  show k1_pay1 (F := Ideal) (iblk1 V c 2 t) (iblk1 V c 0 t) (iblk1 V c 1 t) (ix2 p q)
    = Out1 V c (((cfg1.win 3).blk t).view.emb (ix2 p q))
  refine (Cert.KernelIdeal.PayAt.k1pay1_at (iblk1 V c 2 t) (iblk1 V c 0 t) (iblk1 V c 1 t) p q).trans (Eq.trans ?_ hR.symm)
  refine congrArg₂ (· + ·) (Finset.sum_congr rfl fun k _ => congrArg₂ (· * ·) ?_ ?_) ?_
  · show g16A V c (((cfg1.win 2).blk t).view.emb (ix2 p k)) = g16A V c (ix2 r k)
    refine congrArg (g16A V c) (funext fun a => Fin.ext ?_)
    match a with
    | ⟨0, _⟩ => show win1_2.index t (0 : Fin 2) * 400 + 1 * p.val = r.val; omega
    | ⟨1, _⟩ => show win1_2.index t (1 : Fin 2) * 10000 + 1 * k.val = k.val; omega
  · show s2A V c (((cfg1.win 0).blk t).view.emb (ix2 k q)) = s2A V c (ix2 k q)
    refine congrArg (s2A V c) (funext fun a => Fin.ext ?_)
    match a with
    | ⟨0, _⟩ => show win1_0.index t (0 : Fin 2) * 10000 + 1 * k.val = k.val; omega
    | ⟨1, _⟩ => show win1_0.index t (1 : Fin 2) * 128 + 1 * q.val = q.val; omega
  · show b2A V c (((cfg1.win 1).blk t).view.emb (ix2 (0 : Fin 1) q)) = b2A V c (ix2 (0 : Fin 1) q)
    refine congrArg (b2A V c) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega

/-- An index of the result array is in point t's block iff each coordinate is in the block's range on its axis. -/
theorem mem_blk1_3 (t : Fin cfg1.N) (i : S10000x128.Idx) :
    i ∈ ((cfg1.win 3).blk t).view.set ↔ ∀ a : Fin 2, win1_3.index t a * S400x128.size a ≤ (i a).val ∧ (i a).val < win1_3.index t a * S400x128.size a + S400x128.size a := by
  show i ∈ ((View.whole main_v3).slice (win1_3.rect t)).set ↔ _
  rw [View.set_slice_whole, Rect.mem_set_unit]
  exact Iff.rfl

/-- Every index of the result array is in the block of the point its row divided by 400 names, and every point
    writes its block back. -/
theorem rows_cover1_3 (i : S10000x128.Idx) :
    ∃ t : Fin cfg1.N, (cfg1.win 3).flush t = true ∧ i ∈ ((cfg1.win 3).blk t).view.set := by
  have hi0 : (i 0).val < 10000 := (i 0).isLt
  have hi1 : (i 1).val < 128 := (i 1).isLt
  obtain ⟨t, ht⟩ : ∃ t : Fin cfg1.N, t.val = (i 0).val / 400 := ⟨⟨(i 0).val / 400, by show _ < 25; omega⟩, rfl⟩
  obtain ⟨-, -, -, -, -, -, e30, e31⟩ := idx_facts1 t
  refine ⟨t, flush1_3 t, ?_⟩
  rw [mem_blk1_3]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 128 ≤ (i 1).val ∧ (i 1).val < win1_3.index t (1 : Fin 2) * 128 + 128; omega

/-- The result array after the run is that function. -/
theorem final1_3 (c : Dev nD) : (dat1 (F := Ideal) V c).arrAt 3 cfg1.N = Out1 V c :=
  (dat1 (F := Ideal) V c).arrAt_eq_of_cover 3 (Out1 V c) (fun t _ => flushed1_3_eq V c t) (fun i => rows_cover1_3 i)

end

end Cert.KernelIdeal.Hand

end
-- ==== Proof.KValue.lean ====
/-
  The kernel's result, at the ideal values, is the specification. The second region's output array is the sum over k
  of the narrowed adjacency entry times the second-layer support entry, plus the bias; the arrays the second region is
  entered with are what the first region left — the adjacency matrix itself and the specification's second-layer
  support — and the reshaped second bias; the first region was entered with the arguments as launched and the
  reshaped first bias. A bias reshaped to a row, read at (0, j), is the bias at j.
-/
import proofs.«127114_g57621281243476_cont_9to1c4b_629_11_alg».proof.Proof.Gen.KernelIdeal.Launch
import proofs.«127114_g57621281243476_cont_9to1c4b_629_11_alg».proof.Proof.Gen.KernelIdeal.Skeleton
import proofs.«127114_g57621281243476_cont_9to1c4b_629_11_alg».proof.Proof.Gen.KernelIdeal.Points
import proofs.«127114_g57621281243476_cont_9to1c4b_629_11_alg».proof.Proof.Run
import proofs.«127114_g57621281243476_cont_9to1c4b_629_11_alg».proof.Proof.Final0
import proofs.«127114_g57621281243476_cont_9to1c4b_629_11_alg».proof.Proof.Final1
import proofs.«127114_g57621281243476_cont_9to1c4b_629_11_alg».proof.Proof.Spec
import Idealize.ShloMosaic.Lib.StableHlo.Run
import Idealize.ShloMosaic.Lib.ValueLayout
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section

variable (m : (ℓ : Loc nD τ sig) → Buf (Elt Ideal) ℓ) (ρ : Dev nD → PrngReg)

/-! ## What the first region is entered with -/

theorem gA_V1 (c : Dev nD) : gA (V1 m ρ) c = m ((c : Thread nD τ).loc main_arg0) := by
  show StableHlo.after hostOps0 (W0 m ρ c) (Proc.devRef .tc main_arg0) = _
  after_results
theorem xA_V1 (c : Dev nD) : xA (V1 m ρ) c = m ((c : Thread nD τ).loc main_arg1) := by
  show StableHlo.after hostOps0 (W0 m ρ c) (Proc.devRef .tc main_arg1) = _
  after_results
theorem w1A_V1 (c : Dev nD) : w1A (V1 m ρ) c = m ((c : Thread nD τ).loc main_arg2) := by
  show StableHlo.after hostOps0 (W0 m ρ c) (Proc.devRef .tc main_arg2) = _
  after_results
theorem w2A_V1 (c : Dev nD) : w2A (V1 m ρ) c = m ((c : Thread nD τ).loc main_arg4) := by
  show StableHlo.after hostOps0 (W0 m ρ c) (Proc.devRef .tc main_arg4) = _
  after_results
/-- The first bias, reshaped to a row. -/
theorem b1A_V1 (c : Dev nD) :
    b1A (V1 m ρ) c = shapeCast S1x128 (m ((c : Thread nD τ).loc main_arg3)) shapeCasts_S128_S1x128 := by
  show StableHlo.after hostOps0 (W0 m ρ c) (Proc.devRef .tc main_v0) = _
  after_results
  rfl

/-! ## What the second region is entered with -/

theorem g16A_V3 (c : Dev nD) : g16A (V3 m ρ) c = G16 (V1 m ρ) c := by
  refine Eq.trans ?_ (final0_6 (V1 m ρ) c)
  show StableHlo.after hostOps1 (W2 m ρ c) (Proc.devRef .tc main_v1_1) = _
  after_results
  exact W2_arr m ρ c 6
theorem s2A_V3 (c : Dev nD) : s2A (V3 m ρ) c = S2 (V1 m ρ) c := by
  refine Eq.trans ?_ (final0_5 (V1 m ρ) c)
  show StableHlo.after hostOps1 (W2 m ρ c) (Proc.devRef .tc main_v1_0) = _
  after_results
  exact W2_arr m ρ c 5
/-- The second bias as the first region leaves it: untouched. -/
theorem W2_arg5 (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results
/-- The second bias, reshaped to a row. -/
theorem b2A_V3 (c : Dev nD) :
    b2A (V3 m ρ) c = shapeCast S1x128 (m ((c : Thread nD τ).loc main_arg5)) shapeCasts_S128_S1x128 := by
  show StableHlo.after hostOps1 (W2 m ρ c) (Proc.devRef .tc main_v2) = _
  after_results
  rw [W2_arg5]
  rfl

/-! ## The result -/

/-- A bias reshaped to a row, read at (0, j), is the bias at j. -/
theorem row_apply (b : S128.Idx → EReal) (j : Fin 128) :
    shapeCast S1x128 b shapeCasts_S128_S1x128 (ix2 (0 : Fin 1) j) = b (ix1 j) :=
  shapeCast_a_1a_apply b shapeCasts_S128_S1x128 0 j

/-- The kernel's result array, at the ideal values, is the specification of the six arguments. -/
theorem result_eq_G (c : Dev nD) :
    (dat1 (F := Ideal) (V3 m ρ) c).arrAt 3 cfg1.N
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [final1_3]
  funext i
  unfold Out1
  rw [g16A_V3, s2A_V3, b2A_V3]
  unfold G16 S2
  rw [gA_V1, xA_V1, w1A_V1, w2A_V1, b1A_V1, row_apply]
  have hb : (fun j : Cert.Spec.Sf.Idx => shapeCast S1x128 (m ((c : Thread nD τ).loc main_arg3)) shapeCasts_S128_S1x128 (ix2 (0 : Fin 1) ⟨(j 0).val, (j 0).isLt⟩))
      = m ((c : Thread nD τ).loc main_arg3) := by
    funext j
    rw [row_apply]
    exact congrArg _ (eq_ix1 j).symm
  rw [hb]
  rfl

end

end Cert.KernelIdeal.Hand

end
-- ==== Proof.RefValue.lean ====
/-
  The reference program's result is the specification, index by index, over the extended reals.

  The reference computes  out = g · (relu (g · (x · W1) + b1) · W2) + b2  one operation at a time. Read at an index, each
  matrix product is the sum over the contracted coordinate of the products of the operands' elements, each bias is read
  at the column, the elementwise operations act on the elements, and the zero splat is the extended real 0. Taken in
  the order of the nest (first support, hidden layer, second support, result) these readings are the four functions of
  the specification, with every sum in the specification's own grouping.
-/
import proofs.«127114_g57621281243476_cont_9to1c4b_629_11_alg».proof.Proof.Gen.ReferenceIdeal.Run
import proofs.«127114_g57621281243476_cont_9to1c4b_629_11_alg».proof.Proof.Gen.ReferenceIdeal.Read
import proofs.«127114_g57621281243476_cont_9to1c4b_629_11_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (g : (⟨S10000x10000, .f32⟩ : BufTy).Contents (Elt Ideal)) (x : (⟨S10000x128, .f32⟩ : BufTy).Contents (Elt Ideal))
  (W1 : (⟨S128x128, .f32⟩ : BufTy).Contents (Elt Ideal)) (b1 : (⟨S128, .f32⟩ : BufTy).Contents (Elt Ideal))
  (W2 : (⟨S128x128, .f32⟩ : BufTy).Contents (Elt Ideal)) (b2 : (⟨S128, .f32⟩ : BufTy).Contents (Elt Ideal))

/-- The first product at row `l`, column `j` is the first layer's support: Σ_i x[l, i] · W1[i, j]. -/
theorem v0_eq (l : Fin 10000) (j : Fin 128) :
    val_main_v0 (F := Ideal) x W1 (ix2 l j) = Cert.Spec.support1 x W1 l j := by
  rw [val_main_v0_apply]
  unfold Cert.Spec.support1
  refine Finset.sum_congr rfl fun i _ => ?_
  have el : lidx_main_v0 (ix2 l j) i = ix2 l i := funext fun a => by
    match a with
    | ⟨0, _⟩ => rfl
    | ⟨1, _⟩ => rfl
  have er : ridx_main_v0 (ix2 l j) i = ix2 i j := funext fun a => by
    match a with
    | ⟨0, _⟩ => rfl
    | ⟨1, _⟩ => rfl
  rw [el, er]

/-- The hidden layer at row `k`, column `j`: max (Σ_l g[k, l] · support1[l, j] + b1[j]) 0. -/
theorem v6_eq (k : Fin 10000) (j : Fin 128) :
    val_main_v6 (F := Ideal) g x W1 b1 (ix2 k j) = Cert.Spec.hidden g x W1 b1 k j := by
  rw [val_main_v6_apply, val_main_v4_apply, val_main_v1_apply, val_main_v3_apply, val_main_v2_apply,
    val_main_v5_apply, val_main_cst_apply]
  unfold Cert.Spec.hidden
  have hs : (∑ l : Fin 10000, g (lidx_main_v1 (ix2 k j) l) * val_main_v0 (F := Ideal) x W1 (ridx_main_v1 (ix2 k j) l))
      = ∑ l : Fin 10000, g (ix2 k l) * Cert.Spec.support1 x W1 l j := by
    refine Finset.sum_congr rfl fun l _ => ?_
    have el : lidx_main_v1 (ix2 k j) l = ix2 k l := funext fun a => by
      match a with
      | ⟨0, _⟩ => rfl
      | ⟨1, _⟩ => rfl
    have er : ridx_main_v1 (ix2 k j) l = ix2 l j := funext fun a => by
      match a with
      | ⟨0, _⟩ => rfl
      | ⟨1, _⟩ => rfl
    rw [el, er, v0_eq]
  have hb : idx_main_v2 (idx_main_v3 (ix2 k j)) = ix1 j := funext fun a => by
    match a with
    | ⟨0, _⟩ => rfl
  rw [hs, hb]
  show max ((∑ l : Fin 10000, g (ix2 k l) * Cert.Spec.support1 x W1 l j) + b1 (ix1 j)) (Ideal.ofBits .f32 0x00000000#32) = _
  rw [Ideal.ofBits_zero_f32]

/-- The second product at row `k`, column `c` is the second layer's support: Σ_j hidden[k, j] · W2[j, c]. -/
theorem v7_eq (k : Fin 10000) (c : Fin 128) :
    val_main_v7 (F := Ideal) g x W1 b1 W2 (ix2 k c) = Cert.Spec.support2 g x W1 b1 W2 k c := by
  rw [val_main_v7_apply]
  unfold Cert.Spec.support2
  refine Finset.sum_congr rfl fun j _ => ?_
  have el : lidx_main_v7 (ix2 k c) j = ix2 k j := funext fun a => by
    match a with
    | ⟨0, _⟩ => rfl
    | ⟨1, _⟩ => rfl
  have er : ridx_main_v7 (ix2 k c) j = ix2 j c := funext fun a => by
    match a with
    | ⟨0, _⟩ => rfl
    | ⟨1, _⟩ => rfl
  rw [el, er, v6_eq]

/-- The result at row `r`, column `c`: Σ_k g[r, k] · support2[k, c] + b2[c]. -/
theorem v11_eq (r : Fin 10000) (c : Fin 128) :
    val_main_v11 (F := Ideal) g x W1 b1 W2 b2 (ix2 r c) = Cert.Spec.outAt g x W1 b1 W2 b2 r c := by
  rw [val_main_v11_apply, val_main_v8_apply, val_main_v10_apply, val_main_v9_apply]
  unfold Cert.Spec.outAt
  have hs : (∑ k : Fin 10000, g (lidx_main_v8 (ix2 r c) k) * val_main_v7 (F := Ideal) g x W1 b1 W2 (ridx_main_v8 (ix2 r c) k))
      = ∑ k : Fin 10000, g (ix2 r k) * Cert.Spec.support2 g x W1 b1 W2 k c := by
    refine Finset.sum_congr rfl fun k _ => ?_
    have el : lidx_main_v8 (ix2 r c) k = ix2 r k := funext fun a => by
      match a with
      | ⟨0, _⟩ => rfl
      | ⟨1, _⟩ => rfl
    have er : ridx_main_v8 (ix2 r c) k = ix2 k c := funext fun a => by
      match a with
      | ⟨0, _⟩ => rfl
      | ⟨1, _⟩ => rfl
    rw [el, er, v7_eq]
  have hb : idx_main_v9 (idx_main_v10 (ix2 r c)) = ix1 c := funext fun a => by
    match a with
    | ⟨0, _⟩ => rfl
  rw [hs, hb]
  rfl

/-- The reference's result array is the specification's: every index is a row and a column, and there the two agree. -/
theorem ref_eq_G (g : (⟨S10000x10000, .f32⟩ : BufTy).Contents (Elt Ideal)) (x : (⟨S10000x128, .f32⟩ : BufTy).Contents (Elt Ideal)) (W1 : (⟨S128x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal)) :
    Cert.ReferenceIdeal.Read.val_main_v11 (F := Ideal) g x W1 b1 W2 b2 = Cert.Spec.G g x W1 b1 W2 b2 := by
  funext i
  obtain ⟨r, c, rfl⟩ : ∃ (r : Fin 10000) (c : Fin 128), i = ix2 r c := ⟨i 0, i 1, eq_ix2 i⟩
  rw [v11_eq, Cert.Spec.G_ix2]

end Cert.ReferenceIdeal.RefValue

end
-- ==== Proof.lean ====
/-
  The certificate of a two-layer graph convolution, out = g · (relu(g · (x · W1) + b1) · W2) + b2, computed by two
  pipelined kernels — the first keeps the first layer's support x · W1 in a scratch buffer filled at its first grid
  point, and at every point narrows 200 rows of g to a 16-bit copy and computes 200 rows of the second layer's support;
  the second multiplies 400 rows of the narrowed g by that support and adds b2 — against the plain host computation.

  The three frames: the kernel's program, read at the machine's words and at the ideal values, runs through its four
  segments (reshape, region, reshape, region) with every unscoped buffer followed from the launch to the return, and no
  segment writes an argument; the reference is thirteen host operations. Nothing was rewritten by the idealization,
  so there is nothing to preserve. The value: at the ideal values a change of float format is the identity and a
  matrix product into a zero accumulator is the plain sum over the contracted index, so both programs compute the
  same nest of sums in the same grouping, index by index (Proof/Spec.lean); no law of the extended reals beyond the
  meaning of each operation at an index is used, and the precondition is never opened.
-/
import proofs.«127114_g57621281243476_cont_9to1c4b_629_11_alg».proof.Defs
import proofs.«127114_g57621281243476_cont_9to1c4b_629_11_alg».proof.Proof.Gen.Kernel
import proofs.«127114_g57621281243476_cont_9to1c4b_629_11_alg».proof.Proof.Gen.KernelIdeal
import proofs.«127114_g57621281243476_cont_9to1c4b_629_11_alg».proof.Proof.Gen.ReferenceIdeal
import proofs.«127114_g57621281243476_cont_9to1c4b_629_11_alg».proof.Proof.Gen.Pre_finite_inputs
import proofs.«127114_g57621281243476_cont_9to1c4b_629_11_alg».proof.Proof.KRun
import proofs.«127114_g57621281243476_cont_9to1c4b_629_11_alg».proof.Proof.Run
import proofs.«127114_g57621281243476_cont_9to1c4b_629_11_alg».proof.Proof.KValue
import proofs.«127114_g57621281243476_cont_9to1c4b_629_11_alg».proof.Proof.RefValue
import Idealize.ShloMosaic.Adequacy
import Idealize.ShloMosaic.Init

noncomputable section

namespace Cert.Proof

open Idealize.ShloMosaic Idealize.ShloMosaic.TcCoe Idealize.SL.Sem

/-- The kernel's program at the machine's words: it runs to the end and leaves its arguments unchanged. -/
theorem frame_k : Cert.frame_Kernel := fun m ρ _ => Cert.Kernel.Hand.frame m ρ

/-- The same program at the ideal values. -/
theorem frame_ki : Cert.frame_KernelIdeal := fun m ρ _ => Cert.KernelIdeal.Hand.frame m ρ

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values both programs end with the specification of the six arguments in their result arrays. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.result_eq_G m ρ c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact (Cert.ReferenceIdeal.Read.val_main_v11_eq _ _ _ _ _ _).trans (Cert.ReferenceIdeal.RefValue.ref_eq_G _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
